-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S2x4096x8192 : Shape := ⟨3, ![2, 4096, 8192]⟩
abbrev S2x4096x128 : Shape := ⟨3, ![2, 4096, 128]⟩
abbrev S1x256x8192 : Shape := ⟨3, ![1, 256, 8192]⟩
abbrev S2x256x128 : Shape := ⟨3, ![2, 256, 128]⟩
abbrev S256x8192 : Shape := ⟨2, ![256, 8192]⟩
abbrev S256x128 : Shape := ⟨2, ![256, 128]⟩
abbrev S1x256x128 : Shape := ⟨3, ![1, 256, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S2x4096x8192, .f32⟩
  | .hbm, ⟨3, _⟩ => ⟨S2x4096x128, .f32⟩
  | .hbm, ⟨4, _⟩ => ⟨S8192x128, .f32⟩
  | .local _ .vmem, ⟨0, _⟩ => ⟨S1x256x8192, .f32⟩
  | .local _ .vmem, ⟨1, _⟩ => ⟨S1x256x8192, .f32⟩
  | .local _ .vmem, ⟨2, _⟩ => ⟨S1x256x8192, .f32⟩
  | .local _ .vmem, ⟨3, _⟩ => ⟨S1x256x8192, .f32⟩
  | .local _ .vmem, ⟨4, _⟩ => ⟨S8192x128, .f32⟩
  | .local _ .vmem, ⟨5, _⟩ => ⟨S2x256x128, .f32⟩
  | .local _ .vmem, ⟨6, _⟩ => ⟨S2x256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x8192_S2x4096x8192 : S8192x8192.ShapeCasts S2x4096x8192
  shapeCasts_S2x4096x128_S8192x128 : S2x4096x128.ShapeCasts S8192x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S2x256x128_S1x256x128_0_0_0 : ∀ a, (![0, 0, 0] : Fin 3 → Nat) a + S1x256x128.size a ≤ S2x256x128.size a
  h_S1x256x128 : 0 < S1x256x128.numel
  shapeCasts_S1x256x128_S256x128 : S1x256x128.ShapeCasts S256x128
  shapeCasts_S256x128_S1x256x128 : S256x128.ShapeCasts S1x256x128
  inb_S2x256x128_S1x256x128_1_0_0 : ∀ a, (![1, 0, 0] : Fin 3 → Nat) a + S1x256x128.size a ≤ S2x256x128.size a
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S2x4096x8192.size a
  hwx0_0 : ∀ i : grid0.Coords, EltTy.bits .f32 = 32 ∨ (Rect.block (s := S2x4096x8192) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x8192.size a ≤ S2x4096x8192.size a
  hwx0_1 : ∀ i : grid0.Coords, EltTy.bits .f32 = 32 ∨ (Rect.block (s := S2x4096x8192) S1x256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x128.size a ≤ S2x4096x128.size a
  hwx0_3 : ∀ i : grid0.Coords, EltTy.bits .f32 = 32 ∨ (Rect.block (s := S2x4096x128) S2x256x128.size (cc0_transform_3 i) (hinb0_3 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_call0_v0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S2x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x8192_S8192x128_S8192x128_1_0_0_1_n_n_wf : DotDims.WF S8192x8192 S8192x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.BitsData.lean ====
/-
  The proof data of the one pipelined call: a product A · f computed sixteen row blocks at a time, the matrix A
  handed to the call twice — its upper half of rows through one input window, its lower half through another,
  both windows over ONE array — with f resident whole and the two partial products of a grid point stored as
  the two slabs of the output block.  Since two windows read one array, that array's ownership is dealt between
  them in halves; every other array is held whole.
-/
import proofs.«151637_g75127567942118_cont_9to1_m_496_8_alg».proof.Proof.Gen.Kernel.Launch
import proofs.«151637_g75127567942118_cont_9to1_m_496_8_alg».proof.Proof.Gen.Kernel.Skeleton
import proofs.«151637_g75127567942118_cont_9to1_m_496_8_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- Core `c`'s buffer contents when the call is entered: the matrix has been re-laid as two stacked halves. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole of the resident factor `f`. -/
abbrev rF : Rect S8192x128 := Rect.unit (s := S8192x128) ![0, 0] S8192x128.size inb_S8192x128_S8192x128_0_0
/-- The whole of a 256-row block of the matrix. -/
abbrev rA : Rect S1x256x8192 := Rect.unit (s := S1x256x8192) ![0, 0, 0] S1x256x8192.size inb_S1x256x8192_S1x256x8192_0_0_0
/-- The upper slab of the output block. -/
abbrev rO0 : Rect S2x256x128 := Rect.unit (s := S2x256x128) ![0, 0, 0] S1x256x128.size inb_S2x256x128_S1x256x128_0_0_0
/-- The lower slab of the output block. -/
abbrev rO1 : Rect S2x256x128 := Rect.unit (s := S2x256x128) ![1, 0, 0] S1x256x128.size inb_S2x256x128_S1x256x128_1_0_0

/-- What the body leaves in the output block, from the two matrix blocks and `f`: the upper slab the product of the
    first block with `f`, the lower slab that of the second (the later store listed first). -/
def out0_3 (a0 a1 : Vec F S1x256x8192 .f32) (f : Vec F S8192x128 .f32) : Vec F S2x256x128 .f32 :=
  View.canon [⟨rO1, k0_pay3 (View.ld f rF) (View.ld a1 rA)⟩, ⟨rO0, k0_pay2 (View.ld f rF) (View.ld a0 rA)⟩]

/-- The two slabs tile the output block. -/
theorem cover0_3 (p1 p0 : Vec F S1x256x128 .f32) (y : S2x256x128.Idx) :
    ∃ pc ∈ ([⟨rO1, p1⟩, ⟨rO0, p0⟩] : List (View.Piece (Elt F) S2x256x128 .f32)), y ∈ pc.1.set :=
  View.cover_of_tiled [⟨rO1, p1⟩, ⟨rO0, p0⟩] S1x256x128.size (by rfl) y

/-! ## The proof data -/

/-- On core `c`: the arrays as the call finds them; after the body at point `t` each input's buffer still at its
    block and the output's at `out0_3` of the three input blocks; the scoped rest and the generator register pass
    through untouched; nothing is owed; the matrix's array is held half by each of the two windows reading it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl

end Cert.Kernel.Hand

end
-- ==== Proof.BitsBody.lean ====
/-
  One grid point of the call: with each input window's staging buffer holding its block — the two blocks of the
  matrix and the whole factor — the body loads them, forms the two partial products and stores them as the two slabs
  of the output block; it also loads each slab before overwriting it, and that value is never used.  The inputs'
  buffers are left as found and the output's buffer ends at the canon of the two stores, whatever it held before.
-/
import proofs.«151637_g75127567942118_cont_9to1_m_496_8_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the inputs' buffers -/

/-- An input window's current buffer holds its block at every point, fetched there or not: a window fetched at
    every point holds what was just fetched, and the resident factor, fetched once, is never written by the body. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body's triple -/

set_option maxHeartbeats 1000000 in
/-- The body on whole staging memrefs, the inputs' at read contents and the output's at anything, runs to the
    continuation holding the inputs' as they were and the output's at `out0_3` of them. -/
theorem sound_kernel (c : Dev nD) (E : Set ℕ) (i : grid0.Coords)
    (arg1 : Memref sig .tc .vmem S1x256x8192 .f32) (harg1 : arg1.IsWhole) (arg2 : Memref sig .tc .vmem S1x256x8192 .f32) (harg2 : arg2.IsWhole)
    (arg3 : Memref sig .tc .vmem S8192x128 .f32) (harg3 : arg3.IsWhole) (arg4 : Memref sig .tc .vmem S2x256x128 .f32) (harg4 : arg4.IsWhole)
    (x0 : Vec F S1x256x8192 .f32) (x1 : Vec F S1x256x8192 .f32) (x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_block i arg1 harg1 arg2 harg2 arg3 harg3 arg4 harg4) K := by
  simp only [cc0__matmul_block_eq_skeleton]; unfold cc0__matmul_block_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsTail.lean ====
/-
  The two re-lays around the call, as facts about buffer contents: the opening one writes only the stacked copy of the
  matrix, so both arguments reach the call (and the end) as launched; the closing one reads the stacked result the call
  left and writes the program's result.
-/
import proofs.«151637_g75127567942118_cont_9to1_m_496_8_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The opening line writes only the stacked matrix: the factor reaches the call as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
/-- and so does the matrix itself. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- Core `c`'s buffer contents when the call returns: the result array as the sixteen write-backs left it, every
    other buffer as the call found it. -/
def Wout (c : Dev nD) : Valuation τ sig (Elt F) :=
  @Function.update _ _ (Classical.decEq _) (V0 m c) (Proc.devRef .tc main_call0_v1) ((dats m 0 c).arrAt 3 cfg0.N)

theorem Wout_call0_v1 (c : Dev nD) : Wout m c (Proc.devRef .tc main_call0_v1) = (dats m 0 c).arrAt 3 cfg0.N := by
  unfold Wout; exact @Function.update_self _ _ (Classical.decEq _) _ _ _
theorem Wout_of_ne (c : Dev nD) (b : Ref sig .tc) (hb : b ≠ main_call0_v1) : Wout m c (Proc.devRef .tc b) = V m c b := by
  unfold Wout; exact @Function.update_of_ne _ _ (Classical.decEq _) _ _ (StableHlo.devRef_ne_of_ne hb) _ _

/-- The program's result buffer at the end: the closing line's value from those contents. -/
def result (c : Dev nD) : Buf (Elt F) ((c : Thread nD τ).loc main_v0) :=
  StableHlo.after (List.flatten [hostOps1]) (Wout m c) (Proc.devRef .tc main_v0)

end Cert.Kernel.Hand

end
-- ==== Proof.BitsFrame.lean ====
/-
  The whole run of the program around its one pipelined call: the matrix is re-laid as two stacked halves, the call
  runs its sixteen grid points, and the stacked result is re-laid as one matrix.  Two of the call's input windows
  read ONE array, so that array's ownership enters the call split in halves, one half per window; nothing writes it,
  and both halves come back holding what they held.  The result array, once the call has written all of it, is read
  by the closing re-lay, which writes the program's result and leaves everything else alone.
-/
import proofs.«151637_g75127567942118_cont_9to1_m_496_8_alg».proof.Proof.BitsBody
import proofs.«151637_g75127567942118_cont_9to1_m_496_8_alg».proof.Proof.BitsTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call, and the line after it -/

/-- The program is the re-lay of the matrix, the call, and the re-lay of the result: holding the buffers as
    launched it reduces to the call, continued by the closing line, at the contents after the opening one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays enter the call -/

/-- The buffers behind the call's four windows are three: the stacked matrix (twice), the factor, the result. -/
theorem arrRefs_eq : Finset.univ.image (Pipeline.arrRef spec0) = [main_call0_v0, main_arg0, main_call0_v1].toFinset := by decide

/-- Those three buffers, each held whole, are the call's four arrays at its entry: the stacked matrix's ownership
    is dealt in halves to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [BI.bigSep_eq_bigSepL_of_eq [main_call0_v0, main_arg0, main_call0_v1] arrRefs_eq (by decide), bigSep_W0]
  simp only [BI.bigSepL_cons_cons, BI.bigSepL_singleton]
  rw [(arr_whole0 0).set_eq_univ, (arr_whole0 2).set_eq_univ, (arr_whole0 3).set_eq_univ,
    share0_0, share0_1, share0_2, share0_3]
  show iprop((((c : Thread nD τ).loc main_call0_v0) ↦{fullShare} V m c main_call0_v0)
      ∗ (((c : Thread nD τ).loc main_arg0) ↦{fullShare} V m c main_arg0)
      ∗ (((c : Thread nD τ).loc main_call0_v1) ↦{fullShare} V m c main_call0_v1))
    ⊢ iprop((((c : Thread nD τ).loc main_call0_v0) ↦{fullShare.left} V m c main_call0_v0)
    ∗ (((c : Thread nD τ).loc main_call0_v0) ↦{fullShare.right} V m c main_call0_v0)
    ∗ (((c : Thread nD τ).loc main_arg0) ↦{fullShare} V m c main_arg0)
    ∗ (((c : Thread nD τ).loc main_call0_v1) ↦{fullShare} V m c main_call0_v1))
  iintro ⟨HA, HF, HO⟩
  ihave HA2 := (pointsTo_share (PosShare.mem_left_op_right fullShare)).1 $$ HA
  icases HA2 with ⟨HAl, HAr⟩
  isplitl [HAl]; · iexact HAl
  isplitl [HAr]; · iexact HAr
  isplitl [HF]; · iexact HF
  iexact HO

/-! ## The line after the call -/

/-- The two buffers the closing line touches: it reads the stacked result and writes the program's result. -/
abbrev tailSet : Finset (DevRef τ sig) := [Proc.devRef (τ := τ) .tc main_call0_v1, Proc.devRef .tc main_v0].toFinset

theorem tailSet_nodup : [Proc.devRef (τ := τ) (sig := sig) .tc main_call0_v1, Proc.devRef .tc main_v0].Nodup :=
  List.nodup_cons.mpr ⟨by
    simp only [List.mem_cons, List.mem_nil_iff, or_false]
    exact StableHlo.devRef_ne_of_ne (by decide), List.nodup_singleton _⟩

/-- Those two buffers held at a valuation, one by one. -/
theorem held_tailSet (c : Dev nD) (W : Valuation τ sig (Elt F)) :
    (StableHlo.held (c.tc : Thread nD τ) tailSet W : sProp 𝕄)
      = iprop((((c : Thread nD τ).loc main_call0_v1) ↦{fullShare} W (Proc.devRef .tc main_call0_v1))
          ∗ (((c : Thread nD τ).loc main_v0) ↦{fullShare} W (Proc.devRef .tc main_v0))) := by
  unfold StableHlo.held tailSet
  rw [BI.bigSep_eq_bigSepL _ tailSet_nodup]
  rfl

/-- The closing line touches only those two, -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  intro b hb
  rw [show (StableHlo.TRef.reshape (.of main_call0_v1 : StableHlo.TRef sig ⟨S2x4096x128, .f32⟩) (.of main_v0 : StableHlo.TRef sig ⟨S8192x128, .f32⟩) rfl shapeCasts_S2x4096x128_S8192x128 : HloOp τ sig (Elt F)).bufs
      = {Proc.devRef .tc main_call0_v1, Proc.devRef .tc main_v0} from rfl] at hb
  simp only [Finset.mem_insert, Finset.mem_singleton] at hb
  simp only [tailSet, List.toFinset_cons, List.toFinset_nil, Finset.mem_insert, Finset.mem_singleton, insert_empty_eq]
  exact hb
/-- and allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The closing line does not write the stacked result it reads. -/
theorem after_tail_call0_v1 (c : Dev nD) :
    StableHlo.after (List.flatten [hostOps1]) (Wout m c) (Proc.devRef .tc main_call0_v1) = (dats m 0 c).arrAt 3 cfg0.N := by
  rw [StableHlo.after_of_forall_not_mem (b := Proc.devRef .tc main_call0_v1) _ _ (List.forall_iff_forall_mem.mp (by
    simp only [hostOps1, List.flatten_cons, List.flatten_nil, List.append_nil, List.cons_append,
      List.nil_append, List.Forall, StableHlo.reshape_writes, Finset.mem_singleton]
    exact StableHlo.devRef_ne_of_ne (by decide)))]
  exact Wout_call0_v1 m c

/-- What bypasses the call: the matrix as launched and the (not yet written) result buffer; -/
def Zin (c : Dev nD) : sProp 𝕄 :=
  iprop((((c : Thread nD τ).loc main_arg1) ↦{fullShare} V m c main_arg1) ∗ (((c : Thread nD τ).loc main_v0) ↦{fullShare} V m c main_v0))
/-- and the same two after the closing line: the result buffer now at the re-laid stacked result. -/
def Zout (c : Dev nD) : sProp 𝕄 :=
  iprop((((c : Thread nD τ).loc main_arg1) ↦{fullShare} V m c main_arg1) ∗ (((c : Thread nD τ).loc main_v0) ↦{fullShare} result m c))

set_option backward.isDefEq.respectTransparency.types false in
/-- From the call's exit — the boundary, the four arrays at their final contents, the bypassing buffers — the closing
    line runs, reading the result array (held whole: it is the output window's) and writing the result buffer, and
    hands the arrays back as they were. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  unfold Dat.arrays Zin Zout
  rw [bigSep_W0, (arr_whole0 3).set_eq_univ, share0_3]
  iintro ⟨Hk, Hb, ⟨Ha0, Ha1, Ha2, Ha3⟩, ⟨Hz1, Hz0⟩⟩
  ihave Hh : (StableHlo.held (c.tc : Thread nD τ) tailSet (Wout m c) : sProp 𝕄) $$ [Ha3 Hz0]
  · rw [held_tailSet, Wout_call0_v1, Wout_of_ne m c main_v0 (by decide)]
    isplitl [Ha3]; · iexact Ha3
    iexact Hz0
  rw [← List.append_nil ([StableHlo.seq hostOps1] : List (Prog (TpuEff nD τ sig (Elt F) (Pipeline.Sig Λ₀ (Fin 1) fun p => ((cfgs p).toPCfg (Val := Elt F)).Adm) .tc) PUnit))]
  iapply (Pipeline.wp_seqs_then (fun q => Cfg.toPCfg (Val := Elt F) (cfgs q)) defs₀ Variants.none c tailSet [] [hostOps1] tail_sub tail_fresh (Wout m c)) $$ [Hb Hh]
  · isplitl [Hb]; · iexact Hb
    iexact Hh
  iintro Hb
  rw [Pipeline.chain_nil, wp_pure, held_tailSet, after_tail_call0_v1]
  imodintro
  iapply Hk
  icases Hb with ⟨-, Ha3, Hz0⟩
  isplitr [Hz1 Hz0]
  · isplitl [Ha0]; · iexact Ha0
    isplitl [Ha1]; · iexact Ha1
    isplitl [Ha2]; · iexact Ha2
    iexact Ha3
  isplitl [Hz1]; · iexact Hz1
  iexact Hz0

/-! ## The run -/

-- the launch theorem's implicit arguments are found by unifying its conclusion with this one, which takes unfolding
-- plain definitions in a metavariable's type
set_option backward.isDefEq.respectTransparency.types false in
/-- At the compiled mesh, for any float values, from any memory with zero counters: every weakly fair execution of
    the program on the TensorCores terminates, nothing faulting, and every final state has the result buffer at the
    re-laid stacked result and both arguments as launched. -/
theorem run_main : θ_run defs (onTc (τ := τ) (main (F := F))) (s₀ m ρ) (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      rw [Pipeline.unscopedRestP_none, unscopedRest0_eq]; unfold Zin
      iintro ⟨⟨H1, H0⟩, -, -, -, Hp, -⟩; imodintro
      isplitl [Hp]; · iexists _; iexact Hp
      isplitl [H1]; · iexact H1
      iexact H0)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_arg1) = V m c main_arg1 ∧ s.mem ((c.tc : Thread nD τ).loc main_v0) = result m c)
    (hY := fun c s' => by
      unfold Zout
      iintro ⟨-, ⟨H1, H0⟩, HSI⟩
      icombine HSI H1 gives %h1
      icombine HSI H0 gives %h0
      imodintro
      isplitr; · ipureintro; exact ⟨Buf.eq_of_forall_mem_univ h1, Buf.eq_of_forall_mem_univ h0⟩
      iexact HSI)
    (hQ := fun s h c => ⟨(h c).2.2.2,
      ((h c).1 2).trans (((dats m 0 c).arrAt_in 2 rfl _).trans ((A_eq m c 2).trans (V_main_arg0 m c))),
      (h c).2.2.1.trans (V_main_arg1 m c)⟩)

/-- info: 'Cert.Kernel.Hand.run_main' depends on axioms: [propext, Classical.choice, Quot.sound] -/
#guard_msgs in #print axioms run_main

/-- The program runs to its end, faults nowhere, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.Data.lean ====
/-
  The proof data of the one pipelined call: a product A · f computed sixteen row blocks at a time, the matrix A
  handed to the call twice — its upper half of rows through one input window, its lower half through another,
  both windows over ONE array — with f resident whole and the two partial products of a grid point stored as
  the two slabs of the output block.  Since two windows read one array, that array's ownership is dealt between
  them in halves; every other array is held whole.
-/
import proofs.«151637_g75127567942118_cont_9to1_m_496_8_alg».proof.Proof.Gen.KernelIdeal.Launch
import proofs.«151637_g75127567942118_cont_9to1_m_496_8_alg».proof.Proof.Gen.KernelIdeal.Skeleton
import proofs.«151637_g75127567942118_cont_9to1_m_496_8_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- Core `c`'s buffer contents when the call is entered: the matrix has been re-laid as two stacked halves. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole of the resident factor `f`. -/
abbrev rF : Rect S8192x128 := Rect.unit (s := S8192x128) ![0, 0] S8192x128.size inb_S8192x128_S8192x128_0_0
/-- The whole of a 256-row block of the matrix. -/
abbrev rA : Rect S1x256x8192 := Rect.unit (s := S1x256x8192) ![0, 0, 0] S1x256x8192.size inb_S1x256x8192_S1x256x8192_0_0_0
/-- The upper slab of the output block. -/
abbrev rO0 : Rect S2x256x128 := Rect.unit (s := S2x256x128) ![0, 0, 0] S1x256x128.size inb_S2x256x128_S1x256x128_0_0_0
/-- The lower slab of the output block. -/
abbrev rO1 : Rect S2x256x128 := Rect.unit (s := S2x256x128) ![1, 0, 0] S1x256x128.size inb_S2x256x128_S1x256x128_1_0_0

/-- What the body leaves in the output block, from the two matrix blocks and `f`: the upper slab the product of the
    first block with `f`, the lower slab that of the second (the later store listed first). -/
def out0_3 (a0 a1 : Vec F S1x256x8192 .f32) (f : Vec F S8192x128 .f32) : Vec F S2x256x128 .f32 :=
  View.canon [⟨rO1, k0_pay3 (View.ld f rF) (View.ld a1 rA)⟩, ⟨rO0, k0_pay2 (View.ld f rF) (View.ld a0 rA)⟩]

/-- The two slabs tile the output block. -/
theorem cover0_3 (p1 p0 : Vec F S1x256x128 .f32) (y : S2x256x128.Idx) :
    ∃ pc ∈ ([⟨rO1, p1⟩, ⟨rO0, p0⟩] : List (View.Piece (Elt F) S2x256x128 .f32)), y ∈ pc.1.set :=
  View.cover_of_tiled [⟨rO1, p1⟩, ⟨rO0, p0⟩] S1x256x128.size (by rfl) y

/-! ## The proof data -/

/-- On core `c`: the arrays as the call finds them; after the body at point `t` each input's buffer still at its
    block and the output's at `out0_3` of the three input blocks; the scoped rest and the generator register pass
    through untouched; nothing is owed; the matrix's array is held half by each of the two windows reading it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl

end Cert.KernelIdeal.Hand

end
-- ==== Proof.Body.lean ====
/-
  One grid point of the call: with each input window's staging buffer holding its block — the two blocks of the
  matrix and the whole factor — the body loads them, forms the two partial products and stores them as the two slabs
  of the output block; it also loads each slab before overwriting it, and that value is never used.  The inputs'
  buffers are left as found and the output's buffer ends at the canon of the two stores, whatever it held before.
-/
import proofs.«151637_g75127567942118_cont_9to1_m_496_8_alg».proof.Proof.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the inputs' buffers -/

/-- An input window's current buffer holds its block at every point, fetched there or not: a window fetched at
    every point holds what was just fetched, and the resident factor, fetched once, is never written by the body. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body's triple -/

set_option maxHeartbeats 1000000 in
/-- The body on whole staging memrefs, the inputs' at read contents and the output's at anything, runs to the
    continuation holding the inputs' as they were and the output's at `out0_3` of them. -/
theorem sound_kernel (c : Dev nD) (E : Set ℕ) (i : grid0.Coords)
    (arg1 : Memref sig .tc .vmem S1x256x8192 .f32) (harg1 : arg1.IsWhole) (arg2 : Memref sig .tc .vmem S1x256x8192 .f32) (harg2 : arg2.IsWhole)
    (arg3 : Memref sig .tc .vmem S8192x128 .f32) (harg3 : arg3.IsWhole) (arg4 : Memref sig .tc .vmem S2x256x128 .f32) (harg4 : arg4.IsWhole)
    (x0 : Vec F S1x256x8192 .f32) (x1 : Vec F S1x256x8192 .f32) (x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_block i arg1 harg1 arg2 harg2 arg3 harg3 arg4 harg4) K := by
  simp only [cc0__matmul_block_eq_skeleton]; unfold cc0__matmul_block_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Tail.lean ====
/-
  The two re-lays around the call, as facts about buffer contents: the opening one writes only the stacked copy of the
  matrix, so both arguments reach the call (and the end) as launched; the closing one reads the stacked result the call
  left and writes the program's result.
-/
import proofs.«151637_g75127567942118_cont_9to1_m_496_8_alg».proof.Proof.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The opening line writes only the stacked matrix: the factor reaches the call as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
/-- and so does the matrix itself. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- Core `c`'s buffer contents when the call returns: the result array as the sixteen write-backs left it, every
    other buffer as the call found it. -/
def Wout (c : Dev nD) : Valuation τ sig (Elt F) :=
  @Function.update _ _ (Classical.decEq _) (V0 m c) (Proc.devRef .tc main_call0_v1) ((dats m 0 c).arrAt 3 cfg0.N)

theorem Wout_call0_v1 (c : Dev nD) : Wout m c (Proc.devRef .tc main_call0_v1) = (dats m 0 c).arrAt 3 cfg0.N := by
  unfold Wout; exact @Function.update_self _ _ (Classical.decEq _) _ _ _
theorem Wout_of_ne (c : Dev nD) (b : Ref sig .tc) (hb : b ≠ main_call0_v1) : Wout m c (Proc.devRef .tc b) = V m c b := by
  unfold Wout; exact @Function.update_of_ne _ _ (Classical.decEq _) _ _ (StableHlo.devRef_ne_of_ne hb) _ _

/-- The program's result buffer at the end: the closing line's value from those contents. -/
def result (c : Dev nD) : Buf (Elt F) ((c : Thread nD τ).loc main_v0) :=
  StableHlo.after (List.flatten [hostOps1]) (Wout m c) (Proc.devRef .tc main_v0)

end Cert.KernelIdeal.Hand

end
-- ==== Proof.Frame.lean ====
/-
  The whole run of the program around its one pipelined call: the matrix is re-laid as two stacked halves, the call
  runs its sixteen grid points, and the stacked result is re-laid as one matrix.  Two of the call's input windows
  read ONE array, so that array's ownership enters the call split in halves, one half per window; nothing writes it,
  and both halves come back holding what they held.  The result array, once the call has written all of it, is read
  by the closing re-lay, which writes the program's result and leaves everything else alone.
-/
import proofs.«151637_g75127567942118_cont_9to1_m_496_8_alg».proof.Proof.Body
import proofs.«151637_g75127567942118_cont_9to1_m_496_8_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call, and the line after it -/

/-- The program is the re-lay of the matrix, the call, and the re-lay of the result: holding the buffers as
    launched it reduces to the call, continued by the closing line, at the contents after the opening one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays enter the call -/

/-- The buffers behind the call's four windows are three: the stacked matrix (twice), the factor, the result. -/
theorem arrRefs_eq : Finset.univ.image (Pipeline.arrRef spec0) = [main_call0_v0, main_arg0, main_call0_v1].toFinset := by decide

/-- Those three buffers, each held whole, are the call's four arrays at its entry: the stacked matrix's ownership
    is dealt in halves to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [BI.bigSep_eq_bigSepL_of_eq [main_call0_v0, main_arg0, main_call0_v1] arrRefs_eq (by decide), bigSep_W0]
  simp only [BI.bigSepL_cons_cons, BI.bigSepL_singleton]
  rw [(arr_whole0 0).set_eq_univ, (arr_whole0 2).set_eq_univ, (arr_whole0 3).set_eq_univ,
    share0_0, share0_1, share0_2, share0_3]
  show iprop((((c : Thread nD τ).loc main_call0_v0) ↦{fullShare} V m c main_call0_v0)
      ∗ (((c : Thread nD τ).loc main_arg0) ↦{fullShare} V m c main_arg0)
      ∗ (((c : Thread nD τ).loc main_call0_v1) ↦{fullShare} V m c main_call0_v1))
    ⊢ iprop((((c : Thread nD τ).loc main_call0_v0) ↦{fullShare.left} V m c main_call0_v0)
    ∗ (((c : Thread nD τ).loc main_call0_v0) ↦{fullShare.right} V m c main_call0_v0)
    ∗ (((c : Thread nD τ).loc main_arg0) ↦{fullShare} V m c main_arg0)
    ∗ (((c : Thread nD τ).loc main_call0_v1) ↦{fullShare} V m c main_call0_v1))
  iintro ⟨HA, HF, HO⟩
  ihave HA2 := (pointsTo_share (PosShare.mem_left_op_right fullShare)).1 $$ HA
  icases HA2 with ⟨HAl, HAr⟩
  isplitl [HAl]; · iexact HAl
  isplitl [HAr]; · iexact HAr
  isplitl [HF]; · iexact HF
  iexact HO

/-! ## The line after the call -/

/-- The two buffers the closing line touches: it reads the stacked result and writes the program's result. -/
abbrev tailSet : Finset (DevRef τ sig) := [Proc.devRef (τ := τ) .tc main_call0_v1, Proc.devRef .tc main_v0].toFinset

theorem tailSet_nodup : [Proc.devRef (τ := τ) (sig := sig) .tc main_call0_v1, Proc.devRef .tc main_v0].Nodup :=
  List.nodup_cons.mpr ⟨by
    simp only [List.mem_cons, List.mem_nil_iff, or_false]
    exact StableHlo.devRef_ne_of_ne (by decide), List.nodup_singleton _⟩

/-- Those two buffers held at a valuation, one by one. -/
theorem held_tailSet (c : Dev nD) (W : Valuation τ sig (Elt F)) :
    (StableHlo.held (c.tc : Thread nD τ) tailSet W : sProp 𝕄)
      = iprop((((c : Thread nD τ).loc main_call0_v1) ↦{fullShare} W (Proc.devRef .tc main_call0_v1))
          ∗ (((c : Thread nD τ).loc main_v0) ↦{fullShare} W (Proc.devRef .tc main_v0))) := by
  unfold StableHlo.held tailSet
  rw [BI.bigSep_eq_bigSepL _ tailSet_nodup]
  rfl

/-- The closing line touches only those two, -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  intro b hb
  rw [show (StableHlo.TRef.reshape (.of main_call0_v1 : StableHlo.TRef sig ⟨S2x4096x128, .f32⟩) (.of main_v0 : StableHlo.TRef sig ⟨S8192x128, .f32⟩) rfl shapeCasts_S2x4096x128_S8192x128 : HloOp τ sig (Elt F)).bufs
      = {Proc.devRef .tc main_call0_v1, Proc.devRef .tc main_v0} from rfl] at hb
  simp only [Finset.mem_insert, Finset.mem_singleton] at hb
  simp only [tailSet, List.toFinset_cons, List.toFinset_nil, Finset.mem_insert, Finset.mem_singleton, insert_empty_eq]
  exact hb
/-- and allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The closing line does not write the stacked result it reads. -/
theorem after_tail_call0_v1 (c : Dev nD) :
    StableHlo.after (List.flatten [hostOps1]) (Wout m c) (Proc.devRef .tc main_call0_v1) = (dats m 0 c).arrAt 3 cfg0.N := by
  rw [StableHlo.after_of_forall_not_mem (b := Proc.devRef .tc main_call0_v1) _ _ (List.forall_iff_forall_mem.mp (by
    simp only [hostOps1, List.flatten_cons, List.flatten_nil, List.append_nil, List.cons_append,
      List.nil_append, List.Forall, StableHlo.reshape_writes, Finset.mem_singleton]
    exact StableHlo.devRef_ne_of_ne (by decide)))]
  exact Wout_call0_v1 m c

/-- What bypasses the call: the matrix as launched and the (not yet written) result buffer; -/
def Zin (c : Dev nD) : sProp 𝕄 :=
  iprop((((c : Thread nD τ).loc main_arg1) ↦{fullShare} V m c main_arg1) ∗ (((c : Thread nD τ).loc main_v0) ↦{fullShare} V m c main_v0))
/-- and the same two after the closing line: the result buffer now at the re-laid stacked result. -/
def Zout (c : Dev nD) : sProp 𝕄 :=
  iprop((((c : Thread nD τ).loc main_arg1) ↦{fullShare} V m c main_arg1) ∗ (((c : Thread nD τ).loc main_v0) ↦{fullShare} result m c))

set_option backward.isDefEq.respectTransparency.types false in
/-- From the call's exit — the boundary, the four arrays at their final contents, the bypassing buffers — the closing
    line runs, reading the result array (held whole: it is the output window's) and writing the result buffer, and
    hands the arrays back as they were. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  unfold Dat.arrays Zin Zout
  rw [bigSep_W0, (arr_whole0 3).set_eq_univ, share0_3]
  iintro ⟨Hk, Hb, ⟨Ha0, Ha1, Ha2, Ha3⟩, ⟨Hz1, Hz0⟩⟩
  ihave Hh : (StableHlo.held (c.tc : Thread nD τ) tailSet (Wout m c) : sProp 𝕄) $$ [Ha3 Hz0]
  · rw [held_tailSet, Wout_call0_v1, Wout_of_ne m c main_v0 (by decide)]
    isplitl [Ha3]; · iexact Ha3
    iexact Hz0
  rw [← List.append_nil ([StableHlo.seq hostOps1] : List (Prog (TpuEff nD τ sig (Elt F) (Pipeline.Sig Λ₀ (Fin 1) fun p => ((cfgs p).toPCfg (Val := Elt F)).Adm) .tc) PUnit))]
  iapply (Pipeline.wp_seqs_then (fun q => Cfg.toPCfg (Val := Elt F) (cfgs q)) defs₀ Variants.none c tailSet [] [hostOps1] tail_sub tail_fresh (Wout m c)) $$ [Hb Hh]
  · isplitl [Hb]; · iexact Hb
    iexact Hh
  iintro Hb
  rw [Pipeline.chain_nil, wp_pure, held_tailSet, after_tail_call0_v1]
  imodintro
  iapply Hk
  icases Hb with ⟨-, Ha3, Hz0⟩
  isplitr [Hz1 Hz0]
  · isplitl [Ha0]; · iexact Ha0
    isplitl [Ha1]; · iexact Ha1
    isplitl [Ha2]; · iexact Ha2
    iexact Ha3
  isplitl [Hz1]; · iexact Hz1
  iexact Hz0

/-! ## The run -/

-- the launch theorem's implicit arguments are found by unifying its conclusion with this one, which takes unfolding
-- plain definitions in a metavariable's type
set_option backward.isDefEq.respectTransparency.types false in
/-- At the compiled mesh, for any float values, from any memory with zero counters: every weakly fair execution of
    the program on the TensorCores terminates, nothing faulting, and every final state has the result buffer at the
    re-laid stacked result and both arguments as launched. -/
theorem run_main : θ_run defs (onTc (τ := τ) (main (F := F))) (s₀ m ρ) (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      rw [Pipeline.unscopedRestP_none, unscopedRest0_eq]; unfold Zin
      iintro ⟨⟨H1, H0⟩, -, -, -, Hp, -⟩; imodintro
      isplitl [Hp]; · iexists _; iexact Hp
      isplitl [H1]; · iexact H1
      iexact H0)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_arg1) = V m c main_arg1 ∧ s.mem ((c.tc : Thread nD τ).loc main_v0) = result m c)
    (hY := fun c s' => by
      unfold Zout
      iintro ⟨-, ⟨H1, H0⟩, HSI⟩
      icombine HSI H1 gives %h1
      icombine HSI H0 gives %h0
      imodintro
      isplitr; · ipureintro; exact ⟨Buf.eq_of_forall_mem_univ h1, Buf.eq_of_forall_mem_univ h0⟩
      iexact HSI)
    (hQ := fun s h c => ⟨(h c).2.2.2,
      ((h c).1 2).trans (((dats m 0 c).arrAt_in 2 rfl _).trans ((A_eq m c 2).trans (V_main_arg0 m c))),
      (h c).2.2.1.trans (V_main_arg1 m c)⟩)

/-- info: 'Cert.KernelIdeal.Hand.run_main' depends on axioms: [propext, Classical.choice, Quot.sound] -/
#guard_msgs in #print axioms run_main

/-- The program runs to its end, faults nowhere, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Payload.lean ====
/-
  One partial product of the body at the exact values: the 256 × 128 block a grid point stores is the product of
  its 256 × 8192 block of the matrix with the resident 8192 × 128 factor, entry by entry the sum over the contracted
  coordinate (a change of float format is the identity at the exact values, and the accumulator starts at zero).
-/
import proofs.«151637_g75127567942118_cont_9to1_m_496_8_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«151637_g75127567942118_cont_9to1_m_496_8_alg».proof.Proof.LibPlainMatmul

noncomputable section

namespace Cert.KernelIdeal.Hand

open Cert.KernelIdeal Cert.KernelIdeal.Gen Idealize.ShloMosaic Idealize.ShloMosaic.ValueIdx

/-- The first store's value at row `r`, column `n` of its one slab. -/
theorem pay2_apply (f : Vec Ideal S8192x128 .f32) (a : Vec Ideal S1x256x8192 .f32) (r : Fin 256) (n : Fin 128) :
    k0_pay2 (F := Ideal) f a (ix3 (n0 := 1) (n1 := 256) (n2 := 128) 0 r n)
      = ∑ k : Fin 8192, a (ix3 (n0 := 1) (n1 := 256) (n2 := 8192) 0 r k) * f (ix2 (n0 := 8192) (n1 := 128) k n) := by
  unfold k0_pay2 k0_pay1
  -- the added unit axis is dropped: the slab's entry (0, r, n) is the product's entry (r, n)
  refine (shapeCast_ab_1ab_apply _ _ 0 r n).trans ?_
  -- the product into the zero accumulator is the sum over the contracted coordinate
  refine (PlainMatmul.matmul_zero_apply _ Facts₀.dot_S256x8192_S8192x128_S256x128_1_0_0_1_n_n_wf rfl none _ _ r n).trans ?_
  refine Finset.sum_congr rfl fun k _ => ?_
  -- the format changes are the identity, and the block's entry (r, k) is its entry (0, r, k) under the unit axis
  refine congrArg (· * f (ix2 (n0 := 8192) (n1 := 128) k n)) ?_
  exact shapeCast_1ab_ab_apply a _ r k

/-- The second store's value likewise. -/
theorem pay3_apply (f : Vec Ideal S8192x128 .f32) (a : Vec Ideal S1x256x8192 .f32) (r : Fin 256) (n : Fin 128) :
    k0_pay3 (F := Ideal) f a (ix3 (n0 := 1) (n1 := 256) (n2 := 128) 0 r n)
      = ∑ k : Fin 8192, a (ix3 (n0 := 1) (n1 := 256) (n2 := 8192) 0 r k) * f (ix2 (n0 := 8192) (n1 := 128) k n) := by
  unfold k0_pay3 k0_pay1
  -- the added unit axis is dropped: the slab's entry (0, r, n) is the product's entry (r, n)
  refine (shapeCast_ab_1ab_apply _ _ 0 r n).trans ?_
  -- the product into the zero accumulator is the sum over the contracted coordinate
  refine (PlainMatmul.matmul_zero_apply _ Facts₀.dot_S256x8192_S8192x128_S256x128_1_0_0_1_n_n_wf rfl none _ _ r n).trans ?_
  refine Finset.sum_congr rfl fun k _ => ?_
  -- the format changes are the identity, and the block's entry (r, k) is its entry (0, r, k) under the unit axis
  refine congrArg (· * f (ix2 (n0 := 8192) (n1 := 128) k n)) ?_
  exact shapeCast_1ab_ab_apply a _ r k

end Cert.KernelIdeal.Hand

end
-- ==== Proof.Spec.lean ====
/-
  The two ways of writing the product A · f that the certificate compares: entry (i, n) of A · f as the sum over the
  contracted coordinate, and the same with A's 8192 rows stacked as two halves of 4096 (row i = s · 4096 + q is row q
  of half s), which is how the kernel is handed A and how it lays out its result.
-/
import Idealize.ShloMosaic.PureOps.Ideal
import Idealize.ShloMosaic.Lib.ValueIdx

noncomputable section

namespace Cert.Spec

open Idealize.ShloMosaic Idealize.ShloMosaic.ValueIdx

abbrev SF : Shape := ⟨2, ![8192, 128]⟩
abbrev SA : Shape := ⟨2, ![8192, 8192]⟩
abbrev SA2 : Shape := ⟨3, ![2, 4096, 8192]⟩
abbrev SO2 : Shape := ⟨3, ![2, 4096, 128]⟩

/-- A · f, entry by entry: (A · f)[i, n] = Σₖ A[i, k] · f[k, n]. -/
def prod (f : SF.Idx → EReal) (A : SA.Idx → EReal) : SF.Idx → EReal :=
  fun i => ∑ k : Fin 8192, A (ix2 (n0 := 8192) (n1 := 8192) ⟨(i 0).val, (i 0).isLt⟩ k)
    * f (ix2 (n0 := 8192) (n1 := 128) k ⟨(i 1).val, (i 1).isLt⟩)

/-- The same product with A's rows stacked in two halves: entry [s, q, n] = Σₖ A₂[s, q, k] · f[k, n]. -/
def prod2 (f : SF.Idx → EReal) (A2 : SA2.Idx → EReal) : SO2.Idx → EReal :=
  fun j => ∑ k : Fin 8192, A2 (ix3 (n0 := 2) (n1 := 4096) (n2 := 8192) ⟨(j 0).val, (j 0).isLt⟩ ⟨(j 1).val, (j 1).isLt⟩ k)
    * f (ix2 (n0 := 8192) (n1 := 128) k ⟨(j 2).val, (j 2).isLt⟩)

end Cert.Spec

end
-- ==== Proof.KernelValue.lean ====
/-
  The output array after the whole grid has run, at the exact values: point t writes rows 256 t … 256 t + 255 of
  both halves, the sixteen points tile the 4096 rows, so the array ends as the stacked product of the stacked matrix
  with f.
-/
import proofs.«151637_g75127567942118_cont_9to1_m_496_8_alg».proof.Proof.Data
import proofs.«151637_g75127567942118_cont_9to1_m_496_8_alg».proof.Proof.Payload
import proofs.«151637_g75127567942118_cont_9to1_m_496_8_alg».proof.Proof.Spec

set_option maxRecDepth 16384

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat Cfg Window)

variable (m : (ℓ : Loc nD τ sig) → Buf (Elt Ideal) ℓ)

namespace Blocks

/-! ## Where the blocks sit -/

/-- Where each window's block sits at grid point t: the two matrix windows at row block t of half 0 and of half 1,
    the factor whole, the output at row block t of both halves. -/
theorem block_index : ∀ t : Fin cfg0.N,
    win0_0.index t (0 : Fin 3) = 0 ∧ win0_0.index t (1 : Fin 3) = t.val ∧ win0_0.index t (2 : Fin 3) = 0
    ∧ win0_1.index t (0 : Fin 3) = 1 ∧ win0_1.index t (1 : Fin 3) = t.val ∧ win0_1.index t (2 : Fin 3) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- The zero offsets of a whole rectangle, at rank two and rank three. -/
theorem zero2 : (![0, 0] : Fin 2 → Nat) = fun _ => 0 := funext fun a => by fin_cases a <;> rfl
theorem zero3 : (![0, 0, 0] : Fin 3 → Nat) = fun _ => 0 := funext fun a => by fin_cases a <;> rfl

/-! ## The output block from its two slabs -/

/-- An entry of slab 1 of the block is that entry of the lower slab's rectangle. -/
theorem lower_emb (r : Fin 256) (n : Fin 128) :
    (ix3 (n0 := 2) (n1 := 256) (n2 := 128) 1 r n : S2x256x128.Idx)
      = (rO1 : Rect S2x256x128).emb (ix3 (n0 := 1) (n1 := 256) (n2 := 128) 0 r n) := by
  funext a; apply Fin.ext
  match a with
  | ⟨0, _⟩ => rfl
  | ⟨1, _⟩ => show r.val = 0 + 1 * r.val; omega
  | ⟨2, _⟩ => show n.val = 0 + 1 * n.val; omega

/-- An entry of slab 0 of the block is that entry of the upper slab's rectangle. -/
theorem upper_emb (r : Fin 256) (n : Fin 128) :
    (ix3 (n0 := 2) (n1 := 256) (n2 := 128) 0 r n : S2x256x128.Idx)
      = (rO0 : Rect S2x256x128).emb (ix3 (n0 := 1) (n1 := 256) (n2 := 128) 0 r n) := by
  funext a; apply Fin.ext
  match a with
  | ⟨0, _⟩ => rfl
  | ⟨1, _⟩ => show r.val = 0 + 1 * r.val; omega
  | ⟨2, _⟩ => show n.val = 0 + 1 * n.val; omega

/-- An entry of slab 0 is outside the lower slab's rectangle. -/
theorem upper_not_lower (r : Fin 256) (n : Fin 128) :
    (ix3 (n0 := 2) (n1 := 256) (n2 := 128) 0 r n : S2x256x128.Idx) ∉ (rO1 : Rect S2x256x128).set := by
  rw [Rect.mem_set_unit]
  intro h
  have h0 : (1 : Nat) ≤ 0 := (h 0).1
  omega

/-- Two slab stores, the lower one last: slab 1 reads back the lower payload, -/
theorem slabs_lower (p1 p0 : Vec Ideal S1x256x128 .f32) (r : Fin 256) (n : Fin 128) :
    View.canon ([⟨rO1, p1⟩, ⟨rO0, p0⟩] : List (View.Piece (Elt Ideal) S2x256x128 .f32)) (ix3 (n0 := 2) (n1 := 256) (n2 := 128) 1 r n)
      = p1 (ix3 (n0 := 1) (n1 := 256) (n2 := 128) 0 r n) := by
  rw [lower_emb r n]
  exact View.canon_cons_emb (rO1 : Rect S2x256x128) p1 [⟨rO0, p0⟩] (ix3 (n0 := 1) (n1 := 256) (n2 := 128) 0 r n)

/-- and slab 0 the upper one. -/
theorem slabs_upper (p1 p0 : Vec Ideal S1x256x128 .f32) (r : Fin 256) (n : Fin 128) :
    View.canon ([⟨rO1, p1⟩, ⟨rO0, p0⟩] : List (View.Piece (Elt Ideal) S2x256x128 .f32)) (ix3 (n0 := 2) (n1 := 256) (n2 := 128) 0 r n)
      = p0 (ix3 (n0 := 1) (n1 := 256) (n2 := 128) 0 r n) := by
  rw [View.canon_cons_of_not_mem (⟨rO1, p1⟩ : View.Piece (Elt Ideal) S2x256x128 .f32) [⟨rO0, p0⟩] (upper_not_lower r n), upper_emb r n]
  exact View.canon_cons_emb (rO0 : Rect S2x256x128) p0 [] (ix3 (n0 := 1) (n1 := 256) (n2 := 128) 0 r n)

/-- Row r, column n of the lower slab: that entry of the second matrix block times f. -/
theorem out_lower (a0 a1 : Vec Ideal S1x256x8192 .f32) (f : Vec Ideal S8192x128 .f32) (r : Fin 256) (n : Fin 128) :
    out0_3 a0 a1 f (ix3 (n0 := 2) (n1 := 256) (n2 := 128) 1 r n)
      = ∑ k : Fin 8192, a1 (ix3 (n0 := 1) (n1 := 256) (n2 := 8192) 0 r k) * f (ix2 (n0 := 8192) (n1 := 128) k n) := by
  unfold out0_3
  rw [slabs_lower (k0_pay3 (View.ld f rF) (View.ld a1 rA)) (k0_pay2 (View.ld f rF) (View.ld a0 rA)) r n,
    View.ld_unit_zero (S := S1x256x8192) zero3, View.ld_unit_zero (S := S8192x128) zero2]
  exact pay3_apply f a1 r n

/-- Row r, column n of the upper slab: that entry of the first matrix block times f. -/
theorem out_upper (a0 a1 : Vec Ideal S1x256x8192 .f32) (f : Vec Ideal S8192x128 .f32) (r : Fin 256) (n : Fin 128) :
    out0_3 a0 a1 f (ix3 (n0 := 2) (n1 := 256) (n2 := 128) 0 r n)
      = ∑ k : Fin 8192, a0 (ix3 (n0 := 1) (n1 := 256) (n2 := 8192) 0 r k) * f (ix2 (n0 := 8192) (n1 := 128) k n) := by
  unfold out0_3
  rw [slabs_upper (k0_pay3 (View.ld f rF) (View.ld a1 rA)) (k0_pay2 (View.ld f rF) (View.ld a0 rA)) r n,
    View.ld_unit_zero (S := S1x256x8192) zero3, View.ld_unit_zero (S := S8192x128) zero2]
  exact pay2_apply f a0 r n

/-! ## The input blocks as parts of their arrays -/

/-- The first matrix window's block at point t is rows 256 t … 256 t + 255 of half 0 of the stacked matrix. -/
theorem upper_rows (c : Dev nD) (t : Fin cfg0.N) (x : S1x256x8192.Idx) (i : S2x4096x8192.Idx)
    (h0 : (i 0).val = 0) (h1 : (i 1).val = 256 * t.val + (x 1).val) (h2 : (i 2).val = (x 2).val) :
    (iblk m c 0 t : Vec Ideal S1x256x8192 .f32) x = (V m c main_call0_v0 : S2x4096x8192.Idx → Elt Ideal .f32) i := by
  obtain ⟨e0, e1, e2, -⟩ := block_index t
  have hx : (x 0).val < 1 := (x 0).isLt
  unfold iblk
  rw [View.read_apply]
  show V m c main_call0_v0 _ = V m c main_call0_v0 i
  congr 1
  funext a
  apply Fin.ext
  match a with
  | ⟨0, _⟩ => show win0_0.index t (0 : Fin 3) * 1 + 1 * (x 0).val = (i 0).val; omega
  | ⟨1, _⟩ => show win0_0.index t (1 : Fin 3) * 256 + 1 * (x 1).val = (i 1).val; omega
  | ⟨2, _⟩ => show win0_0.index t (2 : Fin 3) * 8192 + 1 * (x 2).val = (i 2).val; omega

/-- The second matrix window's block at point t is the same rows of half 1. -/
theorem lower_rows (c : Dev nD) (t : Fin cfg0.N) (x : S1x256x8192.Idx) (i : S2x4096x8192.Idx)
    (h0 : (i 0).val = 1) (h1 : (i 1).val = 256 * t.val + (x 1).val) (h2 : (i 2).val = (x 2).val) :
    (iblk m c 1 t : Vec Ideal S1x256x8192 .f32) x = (V m c main_call0_v0 : S2x4096x8192.Idx → Elt Ideal .f32) i := by
  obtain ⟨-, -, -, e0, e1, e2, -⟩ := block_index t
  have hx : (x 0).val < 1 := (x 0).isLt
  unfold iblk
  rw [View.read_apply]
  show V m c main_call0_v0 _ = V m c main_call0_v0 i
  congr 1
  funext a
  apply Fin.ext
  match a with
  | ⟨0, _⟩ => show win0_1.index t (0 : Fin 3) * 1 + 1 * (x 0).val = (i 0).val; omega
  | ⟨1, _⟩ => show win0_1.index t (1 : Fin 3) * 256 + 1 * (x 1).val = (i 1).val; omega
  | ⟨2, _⟩ => show win0_1.index t (2 : Fin 3) * 8192 + 1 * (x 2).val = (i 2).val; omega

/-- The factor's window holds all of f at every point. -/
theorem factor_whole (c : Dev nD) (t : Fin cfg0.N) (x : S8192x128.Idx) (i : S8192x128.Idx)
    (h0 : (i 0).val = (x 0).val) (h1 : (i 1).val = (x 1).val) :
    (iblk m c 2 t : Vec Ideal S8192x128 .f32) x = (V m c main_arg0 : S8192x128.Idx → Elt Ideal .f32) i := by
  obtain ⟨-, -, -, -, -, -, e0, e1, -⟩ := block_index t
  unfold iblk
  rw [View.read_apply]
  show V m c main_arg0 _ = V m c main_arg0 i
  congr 1
  funext a
  apply Fin.ext
  match a with
  | ⟨0, _⟩ => show win0_2.index t (0 : Fin 2) * 8192 + 1 * (x 0).val = (i 0).val; omega
  | ⟨1, _⟩ => show win0_2.index t (1 : Fin 2) * 128 + 1 * (x 1).val = (i 1).val; omega

/-! ## What a point writes back -/

/-- An entry of the output block at point t sits in the array in the same half and column, 256 t rows further down. -/
theorem out_pos (t : Fin cfg0.N) (y : S2x256x128.Idx) :
    ((((cfg0.win 3).blk t).view.emb y : S2x4096x128.Idx) 0).val = (y 0).val
    ∧ ((((cfg0.win 3).blk t).view.emb y : S2x4096x128.Idx) 1).val = 256 * t.val + (y 1).val
    ∧ ((((cfg0.win 3).blk t).view.emb y : S2x4096x128.Idx) 2).val = (y 2).val := by
  obtain ⟨-, -, -, -, -, -, -, -, e0, e1, e2⟩ := block_index t
  refine ⟨?_, ?_, ?_⟩
  · show win0_3.index t (0 : Fin 3) * 2 + 1 * (y 0).val = (y 0).val; omega
  · show win0_3.index t (1 : Fin 3) * 256 + 1 * (y 1).val = 256 * t.val + (y 1).val; omega
  · show win0_3.index t (2 : Fin 3) * 128 + 1 * (y 2).val = (y 2).val; omega

/-- The block the body leaves at point t is, entry by entry, the stacked product at the entry's place in the array. -/
theorem written_block (c : Dev nD) (t : Fin cfg0.N) (y : S2x256x128.Idx) :
    out0_3 (iblk m c 0 t) (iblk m c 1 t) (iblk m c 2 t) y
      = Cert.Spec.prod2 (V m c main_arg0) (V m c main_call0_v0) (((cfg0.win 3).blk t).view.emb y) := by
  obtain ⟨p0, p1, p2⟩ := out_pos t y
  obtain ⟨s, r, n, rfl⟩ : ∃ (s : Fin 2) (r : Fin 256) (n : Fin 128), y = ix3 s r n := ⟨y 0, y 1, y 2, eq_ix3 y⟩
  unfold Cert.Spec.prod2
  rcases (show s.val = 0 ∨ s.val = 1 by omega) with hs | hs
  · obtain rfl : s = 0 := Fin.ext hs
    rw [out_upper (iblk m c 0 t) (iblk m c 1 t) (iblk m c 2 t) r n]
    refine Finset.sum_congr rfl fun k _ => ?_
    refine congrArg₂ (· * ·) ?_ ?_
    · exact upper_rows m c t (ix3 0 r k) _ p0 p1 rfl
    · exact factor_whole m c t (ix2 k n) _ rfl p2
  · obtain rfl : s = 1 := Fin.ext hs
    rw [out_lower (iblk m c 0 t) (iblk m c 1 t) (iblk m c 2 t) r n]
    refine Finset.sum_congr rfl fun k _ => ?_
    refine congrArg₂ (· * ·) ?_ ?_
    · exact lower_rows m c t (ix3 0 r k) _ p0 p1 rfl
    · exact factor_whole m c t (ix2 k n) _ rfl p2

/-- What point t writes back is its block of the stacked product of the arrays as the call finds them. -/
theorem flushed_eq (c : Dev nD) (t : Fin cfg0.N) :
    (dats (F := Ideal) m 0 c).flushed 3 t
      = ((cfg0.win 3).blk t).view.read (Elt Ideal) (Cert.Spec.prod2 (V m c main_arg0) (V m c main_call0_v0)) := by
  show (cfg0.win 3).cut (grid0.coords t) ((dats (F := Ideal) m 0 c).after 3 t) = _
  rw [after0_3]
  funext y
  exact written_block m c t y

/-! ## The sixteen blocks tile the array -/

/-- An index of the output array is in point t's block iff each coordinate is in the block's range on its axis. -/
theorem mem_out_block (t : Fin cfg0.N) (i : S2x4096x128.Idx) :
    i ∈ ((cfg0.win 3).blk t).view.set ↔ ∀ a : Fin 3, win0_3.index t a * S2x256x128.size a ≤ (i a).val
      ∧ (i a).val < win0_3.index t a * S2x256x128.size a + S2x256x128.size a := by
  show i ∈ ((View.whole main_call0_v1).slice (win0_3.rect t)).set ↔ _
  rw [View.set_slice_whole, Rect.mem_set_unit]
  exact Iff.rfl

/-- Row q of either half is written by point q / 256. -/
theorem covered (i : S2x4096x128.Idx) :
    ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 128 := (i 2).isLt
  have hN : cfg0.N = 16 := N_0
  obtain ⟨t, ht⟩ : ∃ t : Fin cfg0.N, t.val = (i 1).val / 256 := ⟨⟨(i 1).val / 256, by rw [hN]; omega⟩, rfl⟩
  obtain ⟨-, -, -, -, -, -, -, -, e0, e1, e2⟩ := block_index t
  refine ⟨t, flush0_3 t, ?_⟩
  rw [mem_out_block]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 256 ≤ (i 1).val ∧ (i 1).val < win0_3.index t (1 : Fin 3) * 256 + 256; omega
  | ⟨2, _⟩ => show win0_3.index t (2 : Fin 3) * 128 ≤ (i 2).val ∧ (i 2).val < win0_3.index t (2 : Fin 3) * 128 + 128; omega

end Blocks

open Blocks in
/-- The output array when the call returns. -/
theorem final3 (c : Dev nD) :
    (dats (F := Ideal) m 0 c).arrAt 3 cfg0.N = Cert.Spec.prod2 (V m c main_arg0) (V m c main_call0_v0) := by
  exact (dats (F := Ideal) m 0 c).arrAt_eq_of_cover 3 (Cert.Spec.prod2 (V m c main_arg0) (V m c main_call0_v0))
    (fun t _ => flushed_eq m c t) covered

end Cert.KernelIdeal.Hand

end
-- ==== Proof.Relaid.lean ====
/-
  Stacking A's rows in two halves, multiplying, and unstacking the result is multiplying A: row i = s · 4096 + q of
  the product is row q of half s.
-/
import proofs.«151637_g75127567942118_cont_9to1_m_496_8_alg».proof.Proof.Spec
import Idealize.ShloMosaic.Lib.Pipeline.Value
import Idealize.ShloMosaic.Lib.ValueLayout

noncomputable section

namespace Cert.Spec

open Idealize.ShloMosaic Idealize.ShloMosaic.ValueIdx

theorem prod_relaid (f : SF.Idx → EReal) (A : SA.Idx → EReal) (h1 : SA.ShapeCasts SA2) (h2 : SO2.ShapeCasts SF) :
    shapeCast SF (prod2 f (shapeCast SA2 A h1)) h2 = prod f A := by
  funext i
  -- row i₀ of the product is row q = i₀ mod 4096 of half s = i₀ div 4096
  have hi0 : (i 0).val < 8192 := (i 0).isLt
  have hi1 : (i 1).val < 128 := (i 1).isLt
  have hs : (i 0).val / 4096 < 2 := by omega
  have hq : (i 0).val % 4096 < 4096 := by omega
  -- the outer reshape reads the stacked product at (s, q, n): the two row-major positions agree
  refine (shapeCast_apply _ h2 i
    (ix3 (n0 := 2) (n1 := 4096) (n2 := 128) ⟨(i 0).val / 4096, hs⟩ ⟨(i 0).val % 4096, hq⟩ ⟨(i 1).val, hi1⟩) ?_).trans ?_
  · rw [Shape.rowMajor_val_three, Shape.rowMajor_val_two]
    show ((i 0).val / 4096 * 4096 + (i 0).val % 4096) * 128 + (i 1).val = (i 0).val * 128 + (i 1).val
    omega
  · -- term by term, the stacked matrix at (s, q, k) is the matrix at (s · 4096 + q, k) = (i₀, k)
    show (∑ k : Fin 8192, _ * _) = ∑ k : Fin 8192, _ * _
    refine Finset.sum_congr rfl fun k _ => ?_
    refine congrArg (· * f (ix2 (n0 := 8192) (n1 := 128) k ⟨(i 1).val, (i 1).isLt⟩)) ?_
    refine shapeCast_apply A h1 _ (ix2 (n0 := 8192) (n1 := 8192) ⟨(i 0).val, (i 0).isLt⟩ k) ?_
    rw [Shape.rowMajor_val_two, Shape.rowMajor_val_three]
    show (i 0).val * 8192 + k.val = ((i 0).val / 4096 * 4096 + (i 0).val % 4096) * 8192 + k.val
    omega

end Cert.Spec

end
-- ==== Proof.ResultValue.lean ====
/-
  The program's result at the exact values: the stacked result the call leaves is the stacked product, its re-lay is
  the product of the matrix as launched with the factor as launched.
-/
import proofs.«151637_g75127567942118_cont_9to1_m_496_8_alg».proof.Proof.Tail
import proofs.«151637_g75127567942118_cont_9to1_m_496_8_alg».proof.Proof.KernelValue
import proofs.«151637_g75127567942118_cont_9to1_m_496_8_alg».proof.Proof.Relaid
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx

variable (m : (ℓ : Loc nD τ sig) → Buf (Elt Ideal) ℓ)

/-- The opening re-lay: the stacked matrix the call reads is the matrix as launched, reshaped to two halves of rows. -/
theorem V_call0_v0 (c : Dev nD) :
    (V m c main_call0_v0 : S2x4096x8192.Idx → Elt Ideal .f32)
      = shapeCast S2x4096x8192 (m ((c : Thread nD τ).loc main_arg1) : S8192x8192.Idx → Elt Ideal .f32)
          shapeCasts_S8192x8192_S2x4096x8192 := by
  dsimp only [V, V0]
  simp only [hostOps0, List.flatten_cons, List.flatten_nil, List.append_nil]
  after_results
  rfl

/-- The closing re-lay: the result is the stacked result the call left, reshaped to 8192 rows. -/
theorem result_cast (c : Dev nD) :
    (result (F := Ideal) m c : S8192x128.Idx → Elt Ideal .f32)
      = shapeCast S8192x128 (Wout m c (Proc.devRef .tc main_call0_v1) : S2x4096x128.Idx → Elt Ideal .f32)
          shapeCasts_S2x4096x128_S8192x128 := by
  unfold result
  simp only [hostOps1, List.flatten_cons, List.flatten_nil, List.append_nil]
  after_results
  rfl

/-- The program's result buffer ends at A · f of the arguments as launched. -/
theorem result_eq (c : Dev nD) :
    result (F := Ideal) m c = Cert.Spec.prod (m ((c : Thread nD τ).loc main_arg0)) (m ((c : Thread nD τ).loc main_arg1)) := by
  -- the stacked result is the stacked product of the stacked matrix with the factor as launched;
  -- unstacking it is the product of the matrix itself
  refine (result_cast m c).trans ?_
  rw [Wout_call0_v1, final3, V_main_arg0, V_call0_v0]
  exact Cert.Spec.prod_relaid _ _ _ _

end Cert.KernelIdeal.Hand

end
-- ==== Proof.RefValue.lean ====
/-
  The reference at the exact values: one product of the matrix with the factor, entry (i, n) the sum over the
  contracted coordinate k of A[i, k] · f[k, n].
-/
import proofs.«151637_g75127567942118_cont_9to1_m_496_8_alg».proof.Proof.Gen.ReferenceIdeal.Read
import proofs.«151637_g75127567942118_cont_9to1_m_496_8_alg».proof.Proof.Spec

noncomputable section

namespace Cert.ReferenceIdeal.RefValue

open Cert.ReferenceIdeal Cert.ReferenceIdeal.Gen Idealize.ShloMosaic Idealize.ShloMosaic.ValueIdx

/-- The reference's result term is A · f. -/
theorem product_eq (f : (⟨S8192x128, .f32⟩ : BufTy).Contents (Elt Ideal)) (A : (⟨S8192x8192, .f32⟩ : BufTy).Contents (Elt Ideal)) :
    Cert.ReferenceIdeal.Read.val_main_v0 (F := Ideal) f A = Cert.Spec.prod f A := by
  funext i
  rw [Cert.ReferenceIdeal.Read.val_main_v0_apply]
  unfold Cert.Spec.prod
  refine Finset.sum_congr rfl fun k _ => ?_
  have el : Cert.ReferenceIdeal.Read.lidx_main_v0 i k = ix2 (n0 := 8192) (n1 := 8192) ⟨(i 0).val, (i 0).isLt⟩ k :=
    funext fun a => by match a with | ⟨0, _⟩ => rfl | ⟨1, _⟩ => rfl
  have er : Cert.ReferenceIdeal.Read.ridx_main_v0 i k = ix2 (n0 := 8192) (n1 := 128) k ⟨(i 1).val, (i 1).isLt⟩ :=
    funext fun a => by match a with | ⟨0, _⟩ => rfl | ⟨1, _⟩ => rfl
  rw [el, er]

end Cert.ReferenceIdeal.RefValue

end
-- ==== Proof.lean ====
/-
  out = A · f, f32[8192, 8192] by f32[8192, 128].  The kernel re-lays A as two stacked halves of 4096 rows and runs one
  pipelined call over sixteen grid points; at point t it multiplies rows 256 t … 256 t + 255 of EACH half (the two
  halves reach it through two input windows over the one stacked array) by the whole of f, casting to bf16 on the way
  and accumulating in f32 from zero, and stores the two 256 × 128 products as the two slabs of its output block; the
  stacked result is re-laid as one 8192 × 128 matrix.  The reference is one product on the host.

  At the exact values a change of float format is the identity and a matrix product into a zero accumulator is the sum
  over the contracted coordinate, so both programs compute Σₖ A[i, k] · f[k, n] at every entry (i, n): the kernel's
  entry (i, n) is entry (q, n) of half s with i = 4096 s + q, written at point t = q / 256.  Only the order of
  evaluation differs, and no law beyond the sums being the same sums is needed, so the precondition is never opened.

  The frames: each program runs to its end, faults nowhere and leaves its arguments as launched.  For the kernel —
  read at the word level and at the exact values from one text — the stacked array's ownership enters the call split
  in halves, one per window reading it, and nothing writes it; the body's triple, the proof data and the launch are in
  Proof/Data, Body, Tail, Frame (and their word-level counterparts), the values in Proof/Payload, KernelValue, Relaid,
  ResultValue, the reference in Proof/RefValue over its generated run.  Nothing was rewritten by the idealization, so
  there is nothing to preserve.
-/
import proofs.«151637_g75127567942118_cont_9to1_m_496_8_alg».proof.Defs
import proofs.«151637_g75127567942118_cont_9to1_m_496_8_alg».proof.Proof.Gen.Kernel
import proofs.«151637_g75127567942118_cont_9to1_m_496_8_alg».proof.Proof.Gen.KernelIdeal
import proofs.«151637_g75127567942118_cont_9to1_m_496_8_alg».proof.Proof.Gen.ReferenceIdeal
import proofs.«151637_g75127567942118_cont_9to1_m_496_8_alg».proof.Proof.Gen.Pre_finite_inputs
import proofs.«151637_g75127567942118_cont_9to1_m_496_8_alg».proof.Proof.Gen.ReferenceIdeal.Run
import proofs.«151637_g75127567942118_cont_9to1_m_496_8_alg».proof.Proof.Gen.ReferenceIdeal.Read
import proofs.«151637_g75127567942118_cont_9to1_m_496_8_alg».proof.Proof.BitsFrame
import proofs.«151637_g75127567942118_cont_9to1_m_496_8_alg».proof.Proof.Frame
import proofs.«151637_g75127567942118_cont_9to1_m_496_8_alg».proof.Proof.ResultValue
import proofs.«151637_g75127567942118_cont_9to1_m_496_8_alg».proof.Proof.RefValue

noncomputable section

namespace Cert.Proof

open Idealize.ShloMosaic Idealize.ShloMosaic.TcCoe Idealize.SL.Sem

/-- The word-level kernel runs, faults nowhere, and leaves its arguments unchanged. -/
theorem frame_k : Cert.frame_Kernel := fun m ρ _ => Cert.Kernel.Hand.frame (F := Bits) m ρ

/-- So does the kernel read at the exact values. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the exact values, from memories agreeing on the arguments, the kernel's result buffer ends at the re-laid
    stacked product, which is A · f of the arguments, and the reference's at the host's product, which is the same
    A · f. -/
theorem algebraic : Cert.algebraic_KernelIdeal_ReferenceIdeal := by
  intro m ρ m' ρ' _ hagree
  refine ⟨fun c => Cert.KernelIdeal.Hand.result (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.RefValue.product_eq _ _).trans (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
